-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S4096 : Shape := ⟨1, ![4096]⟩
abbrev S64 : Shape := ⟨1, ![64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S4096 : S_.BroadcastsInDim S4096 (![] : Fin 0 → Fin S4096.rank)
  reducesTo_S4096_S_d0 : S4096.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S4096 .f32) (main_arg5 : FVec F S4096 .f32) (main_arg6 : FVec F S64 .f32) (main_arg7 : FVec F S64 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S32768x64 .f32) (main_arg1 : FVec F S4096 .f32) (main_arg2 : FVec F S4096 .f32) (main_arg3 : FVec F S4096 .f32) (main_arg4 : FVec F S4096 .f32) (main_arg5 : FVec F S4096 .f32) (main_arg6 : FVec F S64 .f32) (main_arg7 : FVec F S64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S32768x64 : Shape := ⟨2, ![32768, 64]⟩
abbrev S4096 : Shape := ⟨1, ![4096]⟩
abbrev S64 : Shape := ⟨1, ![64]⟩
abbrev S32768x64x1 : Shape := ⟨3, ![32768, 64, 1]⟩
abbrev S32768x1x64 : Shape := ⟨3, ![32768, 1, 64]⟩
abbrev S1x64x64 : Shape := ⟨3, ![1, 64, 64]⟩
abbrev S1x64 : Shape := ⟨2, ![1, 64]⟩
abbrev S32768x1 : Shape := ⟨2, ![32768, 1]⟩
abbrev S128x64x1 : Shape := ⟨3, ![128, 64, 1]⟩
abbrev S128x1x64 : Shape := ⟨3, ![128, 1, 64]⟩
abbrev S128x64 : Shape := ⟨2, ![128, 64]⟩
abbrev S128x1 : Shape := ⟨2, ![128, 1]⟩
abbrev S128x64x64 : Shape := ⟨3, ![128, 64, 64]⟩
abbrev S128x1x1 : Shape := ⟨3, ![128, 1, 1]⟩
abbrev S128 : Shape := ⟨1, ![128]⟩

abbrev nBuf : Space → Nat
  | .hbm => 18
  | .vmem => 15
  | .smem => 0
  | _ => 0

abbrev bufTy : (tb : Table) → Fin (tcTables nBuf tb) → BufTy
  | .hbm, ⟨0, _⟩ => ⟨S32768x64, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S64, .f32⟩
  | .hbm, ⟨7, _⟩ => ⟨S64, .f32⟩
  | .hbm, ⟨8, _⟩ => ⟨S32768x64x1, .f32⟩
  | .hbm, ⟨9, _⟩ => ⟨S32768x1x64, .f32⟩
  | .hbm, ⟨10, _⟩ => ⟨S1x64x64, .f32⟩
  | .hbm, ⟨11, _⟩ => ⟨S1x64x64, .f32⟩
  | .hbm, ⟨12, _⟩ => ⟨S1x64x64, .f32⟩
  | .hbm, ⟨13, _⟩ => ⟨S1x64x64, .f32⟩
  | .hbm, ⟨14, _⟩ => ⟨S1x64x64, .f32⟩
  | .hbm, ⟨15, _⟩ => ⟨S1x64, .f32⟩
  | .hbm, ⟨16, _⟩ => ⟨S1x64, .f32⟩
  | .hbm, ⟨17, _⟩ => ⟨S32768x1, .f32⟩
  | .local _ .vmem, ⟨0, _⟩ => ⟨S128x64x1, .f32⟩
  | .local _ .vmem, ⟨1, _⟩ => ⟨S128x64x1, .f32⟩
  | .local _ .vmem, ⟨2, _⟩ => ⟨S128x1x64, .f32⟩
  | .local _ .vmem, ⟨3, _⟩ => ⟨S128x1x64, .f32⟩
  | .local _ .vmem, ⟨4, _⟩ => ⟨S128x64, .f32⟩
  | .local _ .vmem, ⟨5, _⟩ => ⟨S128x64, .f32⟩
  | .local _ .vmem, ⟨6, _⟩ => ⟨S1x64x64, .f32⟩
  | .local _ .vmem, ⟨7, _⟩ => ⟨S1x64x64, .f32⟩
  | .local _ .vmem, ⟨8, _⟩ => ⟨S1x64x64, .f32⟩
  | .local _ .vmem, ⟨9, _⟩ => ⟨S1x64x64, .f32⟩
  | .local _ .vmem, ⟨10, _⟩ => ⟨S1x64x64, .f32⟩
  | .local _ .vmem, ⟨11, _⟩ => ⟨S1x64, .f32⟩
  | .local _ .vmem, ⟨12, _⟩ => ⟨S1x64, .f32⟩
  | .local _ .vmem, ⟨13, _⟩ => ⟨S128x1, .f32⟩
  | .local _ .vmem, ⟨14, _⟩ => ⟨S128x1, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S32768x64_S32768x64x1 : S32768x64.ShapeCasts S32768x64x1
  shapeCasts_S32768x64_S32768x1x64 : S32768x64.ShapeCasts S32768x1x64
  shapeCasts_S4096_S1x64x64 : S4096.ShapeCasts S1x64x64
  shapeCasts_S64_S1x64 : S64.ShapeCasts S1x64
  inb_S128x64x1_S128x64x1_0_0_0 : ∀ a, (![0, 0, 0] : Fin 3 → Nat) a + S128x64x1.size a ≤ S128x64x1.size a
  h_S128x64x1 : 0 < S128x64x1.numel
  shapeCasts_S128x64x1_S128x64x1 : S128x64x1.ShapeCasts S128x64x1
  inb_S128x1x64_S128x1x64_0_0_0 : ∀ a, (![0, 0, 0] : Fin 3 → Nat) a + S128x1x64.size a ≤ S128x1x64.size a
  h_S128x1x64 : 0 < S128x1x64.numel
  shapeCasts_S128x1x64_S128x1x64 : S128x1x64.ShapeCasts S128x1x64
  broadcasts_S128x64x1_S128x64x64 : S128x64x1.Broadcasts S128x64x64
  broadcasts_S128x1x64_S128x64x64 : S128x1x64.Broadcasts S128x64x64
  inb_S1x64x64_S1x64x64_0_0_0 : ∀ a, (![0, 0, 0] : Fin 3 → Nat) a + S1x64x64.size a ≤ S1x64x64.size a
  h_S1x64x64 : 0 < S1x64x64.numel
  shapeCasts_S1x64x64_S1x64x64 : S1x64x64.ShapeCasts S1x64x64
  broadcasts_S1x64x64_S128x64x64 : S1x64x64.Broadcasts S128x64x64
  reduces_S128x64x64_S128x64 : S128x64x64.Reduces [2] S128x64
  shapeCasts_S128x64_S128x64x1 : S128x64.ShapeCasts S128x64x1
  reduces_S128x64x1_S128x1 : S128x64x1.Reduces [1] S128x1
  shapeCasts_S128x1_S128x1x1 : S128x1.ShapeCasts S128x1x1
  shapeCasts_S128x1x1_S128x1 : S128x1x1.ShapeCasts S128x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  reduces_S128x64_S128 : S128x64.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x1.size a ≤ S32768x64x1.size a
  hwx0_0 : ∀ i : grid0.Coords, EltTy.bits .f32 = 32 ∨ (Rect.block (s := S32768x64x1) S128x64x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1x64.size a ≤ S32768x1x64.size a
  hwx0_1 : ∀ i : grid0.Coords, EltTy.bits .f32 = 32 ∨ (Rect.block (s := S32768x1x64) S128x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S32768x64.size a
  hwx0_2 : ∀ i : grid0.Coords, EltTy.bits .f32 = 32 ∨ (Rect.block (s := S32768x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S1x64x64.size a
  hwx0_3 : ∀ i : grid0.Coords, EltTy.bits .f32 = 32 ∨ (Rect.block (s := S1x64x64) S1x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64x64.size a ≤ S1x64x64.size a
  hwx0_4 : ∀ i : grid0.Coords, EltTy.bits .f32 = 32 ∨ (Rect.block (s := S1x64x64) S1x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64x64.size a ≤ S1x64x64.size a
  hwx0_5 : ∀ i : grid0.Coords, EltTy.bits .f32 = 32 ∨ (Rect.block (s := S1x64x64) S1x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64x64.size a ≤ S1x64x64.size a
  hwx0_6 : ∀ i : grid0.Coords, EltTy.bits .f32 = 32 ∨ (Rect.block (s := S1x64x64) S1x64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64x64.size a ≤ S1x64x64.size a
  hwx0_7 : ∀ i : grid0.Coords, EltTy.bits .f32 = 32 ∨ (Rect.block (s := S1x64x64) S1x64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S32768x1.size a
  hwx0_10 : ∀ i : grid0.Coords, EltTy.bits .f32 = 32 ∨ (Rect.block (s := S32768x1) S128x1.size (cc0_transform_10 i) (hinb0_10 i)).WholeWords (EltTy.packing .f32)

variable [Facts₀]

abbrev win0_0 : Pipeline.Window sig grid0 :=
  Pipeline.Window.ofSpec (Memref.whole main_v0) S128x64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S128x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x64 : Shape := ⟨2, ![32768, 64]⟩
abbrev S4096 : Shape := ⟨1, ![4096]⟩
abbrev S64 : Shape := ⟨1, ![64]⟩
abbrev S32768x64x1 : Shape := ⟨3, ![32768, 64, 1]⟩
abbrev S32768x1x64 : Shape := ⟨3, ![32768, 1, 64]⟩
abbrev S32768x64x64 : Shape := ⟨3, ![32768, 64, 64]⟩
abbrev S32768x4096 : Shape := ⟨2, ![32768, 4096]⟩
abbrev S1x4096 : Shape := ⟨2, ![1, 4096]⟩
abbrev S_ : Shape := ⟨0, ![]⟩
abbrev S32768 : Shape := ⟨1, ![32768]⟩
abbrev S32768x1 : Shape := ⟨2, ![32768, 1]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S64, .f32⟩
  | .hbm, ⟨7, _⟩ => ⟨S64, .f32⟩
  | .hbm, ⟨8, _⟩ => ⟨S32768x64x1, .f32⟩
  | .hbm, ⟨9, _⟩ => ⟨S32768x1x64, .f32⟩
  | .hbm, ⟨10, _⟩ => ⟨S32768x64x64, .f32⟩
  | .hbm, ⟨11, _⟩ => ⟨S32768x64x64, .f32⟩
  | .hbm, ⟨12, _⟩ => ⟨S32768x64x64, .f32⟩
  | .hbm, ⟨13, _⟩ => ⟨S32768x4096, .f32⟩
  | .hbm, ⟨14, _⟩ => ⟨S1x4096, .f32⟩
  | .hbm, ⟨15, _⟩ => ⟨S32768x4096, .f32⟩
  | .hbm, ⟨16, _⟩ => ⟨S32768x4096, .f32⟩
  | .hbm, ⟨17, _⟩ => ⟨S32768x4096, .f32⟩
  | .hbm, ⟨18, _⟩ => ⟨S32768x4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S1x4096, .f32⟩
  | .hbm, ⟨24, _⟩ => ⟨S32768x4096, .f32⟩
  | .hbm, ⟨25, _⟩ => ⟨S32768x4096, .f32⟩
  | .hbm, ⟨26, _⟩ => ⟨S32768x4096, .f32⟩
  | .hbm, ⟨27, _⟩ => ⟨S1x4096, .f32⟩
  | .hbm, ⟨28, _⟩ => ⟨S32768x4096, .f32⟩
  | .hbm, ⟨29, _⟩ => ⟨S32768x4096, .f32⟩
  | .hbm, ⟨30, _⟩ => ⟨S1x4096, .f32⟩
  | .hbm, ⟨31, _⟩ => ⟨S32768x4096, .f32⟩
  | .hbm, ⟨32, _⟩ => ⟨S32768x4096, .f32⟩
  | .hbm, ⟨33, _⟩ => ⟨S1x4096, .f32⟩
  | .hbm, ⟨34, _⟩ => ⟨S32768x4096, .f32⟩
  | .hbm, ⟨35, _⟩ => ⟨S32768x4096, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S1x64, .f32⟩
  | .hbm, ⟨40, _⟩ => ⟨S32768x64, .f32⟩
  | .hbm, ⟨41, _⟩ => ⟨S32768x64, .f32⟩
  | .hbm, ⟨42, _⟩ => ⟨S1x64, .f32⟩
  | .hbm, ⟨43, _⟩ => ⟨S32768x64, .f32⟩
  | .hbm, ⟨44, _⟩ => ⟨S32768x64, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S32768x1, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  bcast_S32768x64_S32768x64x1_0_1 : S32768x64.BroadcastsInDim S32768x64x1 (![0, 1] : Fin 2 → Fin S32768x64x1.rank)
  bcast_S32768x64_S32768x1x64_0_2 : S32768x64.BroadcastsInDim S32768x1x64 (![0, 2] : Fin 2 → Fin S32768x1x64.rank)
  bcast_S32768x64x1_S32768x64x64_0_1_2 : S32768x64x1.BroadcastsInDim S32768x64x64 (![0, 1, 2] : Fin 3 → Fin S32768x64x64.rank)
  bcast_S32768x1x64_S32768x64x64_0_1_2 : S32768x1x64.BroadcastsInDim S32768x64x64 (![0, 1, 2] : Fin 3 → Fin S32768x64x64.rank)
  shapeCasts_S32768x64x64_S32768x4096 : S32768x64x64.ShapeCasts S32768x4096
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  bcast_S_S4096 : S_.BroadcastsInDim S4096 (![] : Fin 0 → Fin S4096.rank)
  reducesTo_S32768x4096_S32768_d1 : S32768x4096.ReducesTo [1] S32768
  h_S_ : 0 < S_.numel
  bcast_S32768_S32768x1_0 : S32768.BroadcastsInDim S32768x1 (![0] : Fin 1 → Fin S32768x1.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768

variable [Facts₀]

class Facts : Prop extends Facts₀ where

variable [Facts]
-- ==== Proof.Spec.lean ====
/-
  The function both programs compute, as one formula.

  For a row `r` of `x : [32768, 64]` and the 4096-entry parameter tables `a, b, c, w, d` laid out row-major
  over pairs `(p, q)` with `p, q < 64`, the result at `(r, 0)` is

    Σ_p Σ_q ( w[64p+q] · ( a[64p+q] · exp( -((x[r,p]·x[r,q] - b[64p+q])²) / ((2·c[64p+q])·c[64p+q]) ) ) + d[64p+q] )
      + Σ_k ( lw[k] · x[r,k] + lb[k] ).

  One program adds the 4096 cross terms row of the outer product after row (a sum over `q` inside a sum over `p`),
  the other adds them in one sweep over the flattened index `n = 64p + q`. Addition of extended reals is
  commutative and associative (with `⊤ + ⊥ = ⊥` as everywhere in this instance), so the two orders agree without
  any finiteness assumption: `sum_pairs`.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.GaussCross

open Idealize.ShloMosaic Idealize.ShloMosaic.ValueIdx
open scoped BigOperators

/-- The flattened position of the pair `(p, q)` in a 64 × 64 table stored row-major. -/
abbrev flat (p q : Fin 64) : Fin 4096 := ⟨64 * p.val + q.val, by have := p.isLt; have := q.isLt; omega⟩

/-- The row and the column of a flattened position. -/
abbrev rowOf (n : Fin 4096) : Fin 64 := ⟨n.val / 64, by have := n.isLt; omega⟩
abbrev colOf (n : Fin 4096) : Fin 64 := ⟨n.val % 64, by have := n.isLt; omega⟩

theorem flat_rowOf_colOf (n : Fin 4096) : flat (rowOf n) (colOf n) = n :=
  Fin.ext (by show 64 * (n.val / 64) + n.val % 64 = n.val; omega)

/-- A sum over rows of sums over columns of a 64 × 64 table is the sum over its 4096 flattened positions. -/
theorem sum_pairs {M : Type*} [AddCommMonoid M] (f : Fin 64 → Fin 64 → M) :
    ∑ p : Fin 64, ∑ q : Fin 64, f p q = ∑ n : Fin 4096, f (rowOf n) (colOf n) := by
  rw [← Fintype.sum_prod_type']
  refine Fintype.sum_equiv (finProdFinEquiv (m := 64) (n := 64)) _ _ fun pq => ?_
  have hp := pq.1.isLt
  have hq := pq.2.isLt
  have e1 : rowOf (finProdFinEquiv (m := 64) (n := 64) pq) = pq.1 :=
    Fin.ext (by show (pq.2.val + 64 * pq.1.val) / 64 = pq.1.val; omega)
  have e2 : colOf (finProdFinEquiv (m := 64) (n := 64) pq) = pq.2 :=
    Fin.ext (by show (pq.2.val + 64 * pq.1.val) % 64 = pq.2.val; omega)
  rw [e1, e2]

/-- One cross term: the Gaussian membership of the product `xi · xj` with centre `b` and width `c`, scaled by `a`,
    then the affine map `w · _ + d`. The factor 2 is kept as its word: both programs spell the same one. -/
def cell (xi xj a b c w d : EReal) : EReal :=
  w * (a * Ideal.exp (Ideal.div (-((xi * xj - b) * (xi * xj - b))) (Ideal.ofBits .f32 0x40000000#32 * c * c))) + d

/-- The result array, index by index: the cross terms summed pair by pair, plus the linear terms. -/
def G (x : (⟨2, ![32768, 64]⟩ : Shape).Idx → EReal) (a b c w d : (⟨1, ![4096]⟩ : Shape).Idx → EReal)
    (lw lb : (⟨1, ![64]⟩ : Shape).Idx → EReal) : (⟨2, ![32768, 1]⟩ : Shape).Idx → EReal := fun i =>
  (∑ p : Fin 64, ∑ q : Fin 64,
      cell (x (ix2 (i 0) p)) (x (ix2 (i 0) q)) (a (ix1 (flat p q))) (b (ix1 (flat p q))) (c (ix1 (flat p q)))
        (w (ix1 (flat p q))) (d (ix1 (flat p q))))
    + ∑ k : Fin 64, (lw (ix1 k) * x (ix2 (i 0) k) + lb (ix1 k))

/-- The same array with the cross terms summed in one sweep over the flattened positions. -/
theorem G_flat (x : (⟨2, ![32768, 64]⟩ : Shape).Idx → EReal) (a b c w d : (⟨1, ![4096]⟩ : Shape).Idx → EReal)
    (lw lb : (⟨1, ![64]⟩ : Shape).Idx → EReal) (i : (⟨2, ![32768, 1]⟩ : Shape).Idx) :
    G x a b c w d lw lb i
      = (∑ n : Fin 4096, cell (x (ix2 (i 0) (rowOf n))) (x (ix2 (i 0) (colOf n))) (a (ix1 n)) (b (ix1 n)) (c (ix1 n))
            (w (ix1 n)) (d (ix1 n)))
        + ∑ k : Fin 64, (lw (ix1 k) * x (ix2 (i 0) k) + lb (ix1 k)) := by
  unfold G
  rw [sum_pairs]
  simp only [flat_rowOf_colOf]

end Cert.GaussCross

end
-- ==== Proof.Block.lean ====
/-
  What one grid point leaves in its output block, read at an index at the exact instance.

  The body multiplies the column `x[·, p]` (a [128, 64, 1] block) by the row `x[·, q]` (a [128, 1, 64] block), both
  spread to [128, 64, 64]; subtracts, squares, negates (as `0 - _`), divides, exponentiates, scales and shifts by the
  five parameter tables (each a [1, 64, 64] block spread over the 128 rows); then sums over `q`, then over `p`.
  The linear part spreads the two [1, 64] tables over the rows and sums over the 64 columns. So row `r` of the
  block is the specification's row formula over the block's own loads.
-/
import proofs.«109781_j19731079758360_1_alg».proof.Proof.Gen.KernelIdeal.Value
import proofs.«109781_j19731079758360_1_alg».proof.Proof.Spec
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen
open Idealize.ShloMosaic Idealize.ShloMosaic.TcCoe Idealize.ShloMosaic.ValueIdx
open Cert.GaussCross
open scoped BigOperators

/-! ## Reductions and spreads read at an index -/

/-- A sum of a float vector over one axis, from the zero word, read at an index at the exact instance: the plain
    sum over that axis's coordinates. -/
theorem lane_sum {s t : Shape} {a : Fin s.rank} (src : FVec Ideal s .f32) (h : s.Reduces [a] t)
    (hφ : FKind.Formats .f32) (hacc : (0x00000000#32 : BitVec 32) = FKind.add.neutral .f32 hφ) (j : t.Idx) :
    multiReduction .add [a] t src 0x00000000#32 h hφ hacc j = ∑ k : Fin (s.size a), src (h.lift j k) :=
  Ideal.multiReduction_add_single src _ h hφ hacc j

theorem exp_at {s : Shape} (v : FVec Ideal s .f32) (i : s.Idx) : exp v i = Ideal.exp (v i) := rfl

variable {α : Type}

/-- A [1, 64, 64] table spread over 128 rows reads `(0, p, q)` at `(r, p, q)`. -/
theorem spread_table (X : S1x64x64.Idx → α) (r : Fin 128) (p q : Fin 64) :
    broadcastTo S128x64x64 X broadcasts_S1x64x64_S128x64x64 (ix3 r p q) = X (ix3 0 p q) :=
  broadcastTo_apply X _ (ix3 r p q) (ix3 0 p q) (fun a => match a with
    | ⟨0, _⟩ => by show 0 = if (1 : Nat) = 1 then 0 else r.val; rw [if_pos rfl]
    | ⟨1, _⟩ => by show p.val = if (64 : Nat) = 1 then 0 else p.val; rw [if_neg (by decide)]
    | ⟨2, _⟩ => by show q.val = if (64 : Nat) = 1 then 0 else q.val; rw [if_neg (by decide)])

/-- A [128, 64, 1] column block spread along the last axis reads `(r, p, 0)` at `(r, p, q)`. -/
theorem spread_col (X : S128x64x1.Idx → α) (r : Fin 128) (p q : Fin 64) :
    broadcastTo S128x64x64 X broadcasts_S128x64x1_S128x64x64 (ix3 r p q) = X (ix3 r p 0) :=
  broadcastTo_apply X _ (ix3 r p q) (ix3 r p 0) (fun a => match a with
    | ⟨0, _⟩ => by show r.val = if (128 : Nat) = 1 then 0 else r.val; rw [if_neg (by decide)]
    | ⟨1, _⟩ => by show p.val = if (64 : Nat) = 1 then 0 else p.val; rw [if_neg (by decide)]
    | ⟨2, _⟩ => by show 0 = if (1 : Nat) = 1 then 0 else q.val; rw [if_pos rfl])

/-- A [128, 1, 64] row block spread along the middle axis reads `(r, 0, q)` at `(r, p, q)`. -/
theorem spread_row (X : S128x1x64.Idx → α) (r : Fin 128) (p q : Fin 64) :
    broadcastTo S128x64x64 X broadcasts_S128x1x64_S128x64x64 (ix3 r p q) = X (ix3 r 0 q) :=
  broadcastTo_apply X _ (ix3 r p q) (ix3 r 0 q) (fun a => match a with
    | ⟨0, _⟩ => by show r.val = if (128 : Nat) = 1 then 0 else r.val; rw [if_neg (by decide)]
    | ⟨1, _⟩ => by show 0 = if (1 : Nat) = 1 then 0 else p.val; rw [if_pos rfl]
    | ⟨2, _⟩ => by show q.val = if (64 : Nat) = 1 then 0 else q.val; rw [if_neg (by decide)])

/-- A [1, 64] table spread over 128 rows reads `(0, k)` at `(r, k)`. -/
theorem spread_line (X : S1x64.Idx → α) (r : Fin 128) (k : Fin 64) :
    broadcastTo S128x64 X broadcasts_S1x64_S128x64 (ix2 r k) = X (ix2 0 k) :=
  broadcastTo_apply X _ (ix2 r k) (ix2 0 k) (fun a => match a with
    | ⟨0, _⟩ => by show 0 = if (1 : Nat) = 1 then 0 else r.val; rw [if_pos rfl]
    | ⟨1, _⟩ => by show k.val = if (64 : Nat) = 1 then 0 else k.val; rw [if_neg (by decide)])

/-! ## The two pointwise terms -/

/-- The cross term of the block at `(r, p, q)`. -/
abbrev crossVec (P0 P1 : Vec Ideal S1x64x64 .f32) (P2 : Vec Ideal S128x64x1 .f32) (P3 : Vec Ideal S128x1x64 .f32)
    (P4 P5 P6 : Vec Ideal S1x64x64 .f32) : FVec Ideal S128x64x64 .f32 :=
  addf (mulf (broadcastTo S128x64x64 (shapeCast S1x64x64 P0 shapeCasts_S1x64x64_S1x64x64) broadcasts_S1x64x64_S128x64x64) (mulf (broadcastTo S128x64x64 (shapeCast S1x64x64 P1 shapeCasts_S1x64x64_S1x64x64) broadcasts_S1x64x64_S128x64x64) (exp (divf (subf (broadcast S128x64x64 (Scalar.ofBits .f32 0x00000000#32)) (mulf (subf (mulf (broadcastTo S128x64x64 (shapeCast S128x64x1 P2 shapeCasts_S128x64x1_S128x64x1) broadcasts_S128x64x1_S128x64x64) (broadcastTo S128x64x64 (shapeCast S128x1x64 P3 shapeCasts_S128x1x64_S128x1x64) broadcasts_S128x1x64_S128x64x64)) (broadcastTo S128x64x64 (shapeCast S1x64x64 P4 shapeCasts_S1x64x64_S1x64x64) broadcasts_S1x64x64_S128x64x64)) (subf (mulf (broadcastTo S128x64x64 (shapeCast S128x64x1 P2 shapeCasts_S128x64x1_S128x64x1) broadcasts_S128x64x1_S128x64x64) (broadcastTo S128x64x64 (shapeCast S128x1x64 P3 shapeCasts_S128x1x64_S128x1x64) broadcasts_S128x1x64_S128x64x64)) (broadcastTo S128x64x64 (shapeCast S1x64x64 P4 shapeCasts_S1x64x64_S1x64x64) broadcasts_S1x64x64_S128x64x64)))) (broadcastTo S128x64x64 (mulf (mulf (broadcast S1x64x64 (Scalar.ofBits .f32 0x40000000#32)) (shapeCast S1x64x64 P5 shapeCasts_S1x64x64_S1x64x64)) (shapeCast S1x64x64 P5 shapeCasts_S1x64x64_S1x64x64)) broadcasts_S1x64x64_S128x64x64))))) (broadcastTo S128x64x64 (shapeCast S1x64x64 P6 shapeCasts_S1x64x64_S1x64x64) broadcasts_S1x64x64_S128x64x64)

theorem cross_at (P0 P1 : Vec Ideal S1x64x64 .f32) (P2 : Vec Ideal S128x64x1 .f32) (P3 : Vec Ideal S128x1x64 .f32)
    (P4 P5 P6 : Vec Ideal S1x64x64 .f32) (r : Fin 128) (p q : Fin 64) :
    crossVec P0 P1 P2 P3 P4 P5 P6 (ix3 r p q)
      = cell (P2 (ix3 r p 0)) (P3 (ix3 r 0 q)) (P1 (ix3 0 p q)) (P4 (ix3 0 p q)) (P5 (ix3 0 p q)) (P0 (ix3 0 p q)) (P6 (ix3 0 p q)) := by
  simp only [crossVec, addf_apply, mulf_apply, subf_apply, divf_apply, exp_at, broadcast_apply, spread_table, spread_col,
    spread_row, shapeCast_self]
  show _ * (_ * Ideal.exp (Ideal.div (Ideal.ofBits .f32 0x00000000#32 - _) _)) + _ = _
  rw [Ideal.ofBits_zero_f32, zero_sub]
  rfl

/-- The linear term of the block at `(r, k)`. -/
abbrev linVec (P7 P9 : Vec Ideal S1x64 .f32) (P8 : Vec Ideal S128x64 .f32) : FVec Ideal S128x64 .f32 :=
  addf (mulf (broadcastTo S128x64 (shapeCast S1x64 P7 shapeCasts_S1x64_S1x64) broadcasts_S1x64_S128x64) P8)
    (broadcastTo S128x64 (shapeCast S1x64 P9 shapeCasts_S1x64_S1x64) broadcasts_S1x64_S128x64)

theorem lin_at (P7 P9 : Vec Ideal S1x64 .f32) (P8 : Vec Ideal S128x64 .f32) (r : Fin 128) (k : Fin 64) :
    linVec P7 P9 P8 (ix2 r k) = P7 (ix2 0 k) * P8 (ix2 r k) + P9 (ix2 0 k) := by
  simp only [linVec, addf_apply, mulf_apply, spread_line, shapeCast_self]

/-! ## The two sums -/

/-- A [128, 64, 64] vector summed over its last axis, then (as a [128, 64, 1] column) over its middle axis, read at
    row `r`: the double sum over the pairs `(p, q)`. -/
theorem pair_sum (T : FVec Ideal S128x64x64 .f32) (r : Fin 128) (u : Fin 1) :
    multiReduction .add [1] S128x1 (shapeCast S128x64x1 (multiReduction .add [2] S128x64 T 0x00000000#32
        reduces_S128x64x64_S128x64 (.inl rfl) rfl) shapeCasts_S128x64_S128x64x1) 0x00000000#32 reduces_S128x64x1_S128x1 (.inl rfl) rfl
        (Value.ix10_0 (ix2 r u))
      = ∑ p : Fin 64, ∑ q : Fin 64, T (ix3 r p q) := by
  refine (lane_sum _ _ _ _ _).trans (Finset.sum_congr rfl fun (p : Fin 64) _ => ?_)
  have e1 : reduces_S128x64x1_S128x1.lift (Value.ix10_0 (ix2 r u)) p = ix3 r p 0 := by
    funext a; apply Fin.ext
    match a with | ⟨0, _⟩ => rfl | ⟨1, _⟩ => rfl | ⟨2, _⟩ => rfl
  refine (congrArg (shapeCast S128x64x1 _ shapeCasts_S128x64_S128x64x1) e1).trans ?_
  refine (shapeCast_apply _ _ (ix3 r p 0) (ix2 r p) (by
    rw [Shape.rowMajor_val_two, Shape.rowMajor_val_three]
    show r.val * 64 + p.val = (r.val * 64 + p.val) * 1 + 0; omega)).trans ?_
  refine (lane_sum _ _ _ _ _).trans (Finset.sum_congr rfl fun (q : Fin 64) _ => ?_)
  exact congrArg T (by
    funext a; apply Fin.ext
    match a with | ⟨0, _⟩ => rfl | ⟨1, _⟩ => rfl | ⟨2, _⟩ => rfl)

/-- A [128, 64] vector summed over its columns, read at row `r`. -/
theorem line_sum (T : FVec Ideal S128x64 .f32) (r : Fin 128) (u : Fin 1) :
    multiReduction .add [1] S128 T 0x00000000#32 reduces_S128x64_S128 (.inl rfl) rfl (Value.ix10_1 (ix2 r u))
      = ∑ k : Fin 64, T (ix2 r k) := by
  refine (lane_sum _ _ _ _ _).trans (Finset.sum_congr rfl fun (k : Fin 64) _ => ?_)
  exact congrArg T (by
    funext a; apply Fin.ext
    match a with | ⟨0, _⟩ => rfl | ⟨1, _⟩ => rfl)

/-! ## The block -/

/-- Row `r` of what a grid point stores, over the point's loads: the specification's row formula. -/
theorem block_value (P0 P1 : Vec Ideal S1x64x64 .f32) (P2 : Vec Ideal S128x64x1 .f32) (P3 : Vec Ideal S128x1x64 .f32)
    (P4 P5 P6 : Vec Ideal S1x64x64 .f32) (P7 : Vec Ideal S1x64 .f32) (P8 : Vec Ideal S128x64 .f32) (P9 : Vec Ideal S1x64 .f32)
    (r : Fin 128) (u : Fin 1) :
    Value.E10 (F := Ideal) P0 P1 P2 P3 P4 P5 P6 P7 P8 P9 (ix2 r u)
      = (∑ p : Fin 64, ∑ q : Fin 64,
          cell (P2 (ix3 r p 0)) (P3 (ix3 r 0 q)) (P1 (ix3 0 p q)) (P4 (ix3 0 p q)) (P5 (ix3 0 p q)) (P0 (ix3 0 p q)) (P6 (ix3 0 p q)))
        + ∑ k : Fin 64, (P7 (ix2 0 k) * P8 (ix2 r k) + P9 (ix2 0 k)) := by
  show _ + _ = _
  congr 1
  · refine (pair_sum (crossVec P0 P1 P2 P3 P4 P5 P6) r u).trans ?_
    exact Finset.sum_congr rfl fun p _ => Finset.sum_congr rfl fun q _ => cross_at P0 P1 P2 P3 P4 P5 P6 r p q
  · refine (line_sum (linVec P7 P9 P8) r u).trans ?_
    exact Finset.sum_congr rfl fun k _ => lin_at P7 P9 P8 r k

end Cert.KernelIdeal.Block

end
-- ==== Proof.Whole.lean ====
/-
  From blocks to the whole result array.

  Grid point `t` of 256 owns rows `128 t … 128 t + 127`: it fetches those rows of `x` three times (as a column block
  [128, 64, 1], as a row block [128, 1, 64] and as a plain [128, 64] block), the five parameter tables whole (each
  viewed [1, 64, 64], position `64 p + q` at `(0, p, q)`) and the two 64-entry tables whole (viewed [1, 64]), and
  writes rows `128 t …` of the [32768, 1] result. Reading every load back to the argument arrays turns the block
  formula into the specification's row formula at row `128 t + r`; the 256 blocks tile the result.
-/
import proofs.«109781_j19731079758360_1_alg».proof.Proof.Block
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Block
open Idealize.ShloMosaic.ValueIdx Cert.GaussCross
open scoped BigOperators

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The argument arrays, and the arrays the region finds -/

abbrev argX (c : Dev nD) : Vec Ideal S32768x64 .f32 := m ((c : Thread nD τ).loc main_arg0)
abbrev argA (c : Dev nD) : Vec Ideal S4096 .f32 := m ((c : Thread nD τ).loc main_arg1)
abbrev argB (c : Dev nD) : Vec Ideal S4096 .f32 := m ((c : Thread nD τ).loc main_arg2)
abbrev argC (c : Dev nD) : Vec Ideal S4096 .f32 := m ((c : Thread nD τ).loc main_arg3)
abbrev argW (c : Dev nD) : Vec Ideal S4096 .f32 := m ((c : Thread nD τ).loc main_arg4)
abbrev argD (c : Dev nD) : Vec Ideal S4096 .f32 := m ((c : Thread nD τ).loc main_arg5)
abbrev argLw (c : Dev nD) : Vec Ideal S64 .f32 := m ((c : Thread nD τ).loc main_arg6)
abbrev argLb (c : Dev nD) : Vec Ideal S64 .f32 := m ((c : Thread nD τ).loc main_arg7)

/-- The host reshapes before the region: each array the region stages is a relabelling of an argument. -/
theorem v0_eq (c : Dev nD) : (V m c main_v0 : S32768x64x1.Idx → EReal) = shapeCast S32768x64x1 (argX m c) shapeCasts_S32768x64_S32768x64x1 := by
  dsimp only [Gen.V, Gen.hostOps0]; after_results; rfl
theorem v1_eq (c : Dev nD) : (V m c main_v1 : S32768x1x64.Idx → EReal) = shapeCast S32768x1x64 (argX m c) shapeCasts_S32768x64_S32768x1x64 := by
  dsimp only [Gen.V, Gen.hostOps0]; after_results; rfl
theorem v2_eq (c : Dev nD) : (V m c main_v2 : S1x64x64.Idx → EReal) = shapeCast S1x64x64 (argA m c) shapeCasts_S4096_S1x64x64 := by
  dsimp only [Gen.V, Gen.hostOps0]; after_results; rfl
theorem v3_eq (c : Dev nD) : (V m c main_v3 : S1x64x64.Idx → EReal) = shapeCast S1x64x64 (argB m c) shapeCasts_S4096_S1x64x64 := by
  dsimp only [Gen.V, Gen.hostOps0]; after_results; rfl
theorem v4_eq (c : Dev nD) : (V m c main_v4 : S1x64x64.Idx → EReal) = shapeCast S1x64x64 (argC m c) shapeCasts_S4096_S1x64x64 := by
  dsimp only [Gen.V, Gen.hostOps0]; after_results; rfl
theorem v5_eq (c : Dev nD) : (V m c main_v5 : S1x64x64.Idx → EReal) = shapeCast S1x64x64 (argW m c) shapeCasts_S4096_S1x64x64 := by
  dsimp only [Gen.V, Gen.hostOps0]; after_results; rfl
theorem v6_eq (c : Dev nD) : (V m c main_v6 : S1x64x64.Idx → EReal) = shapeCast S1x64x64 (argD m c) shapeCasts_S4096_S1x64x64 := by
  dsimp only [Gen.V, Gen.hostOps0]; after_results; rfl
theorem v7_eq (c : Dev nD) : (V m c main_v7 : S1x64.Idx → EReal) = shapeCast S1x64 (argLw m c) shapeCasts_S64_S1x64 := by
  dsimp only [Gen.V, Gen.hostOps0]; after_results; rfl
theorem v8_eq (c : Dev nD) : (V m c main_v8 : S1x64.Idx → EReal) = shapeCast S1x64 (argLb m c) shapeCasts_S64_S1x64 := by
  dsimp only [Gen.V, Gen.hostOps0]; after_results; rfl

/-! ## Which block each point fetches -/

theorem idx_xi : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_xj : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_x : ∀ t : Fin cfg0.N, win0_2.index t (0 : Fin 2) = t.val ∧ win0_2.index t (1 : Fin 2) = 0 :=
  (by decide +kernel : ∀ t : Fin grid0.N, _)
theorem idx_out : ∀ t : Fin cfg0.N, win0_10.index t (0 : Fin 2) = t.val ∧ win0_10.index t (1 : Fin 2) = 0 :=
  (by decide +kernel : ∀ t : Fin grid0.N, _)
theorem idx_tabs : ∀ t : Fin cfg0.N,
    (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0) :=
  (by decide +kernel : ∀ t : Fin grid0.N, _)
theorem idx_lines : ∀ t : Fin cfg0.N,
    (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Row `r` of point `t`'s blocks is row `128 t + r` of the arrays. -/
abbrev rowAt (t : Fin cfg0.N) (r : Fin 128) : Fin 32768 :=
  ⟨128 * t.val + r.val, by have ht : t.val < grid0.N := t.isLt; rw [N_0] at ht; have := r.isLt; omega⟩

/-! ## Each load read back to the arguments -/

theorem xi_at (c : Dev nD) (t : Fin cfg0.N) (r : Fin 128) (p : Fin 64) :
    (iblk m c 0 t : Vec Ideal S128x64x1 .f32) (ix3 r p 0) = argX m c (ix2 (rowAt t r) p) := by
  obtain ⟨e0, e1, e2⟩ := idx_xi t
  unfold iblk
  rw [View.read_apply]
  show V m c main_v0 _ = _
  rw [v0_eq]
  refine shapeCast_apply _ _ _ (ix2 (rowAt t r) p) ?_
  rw [Shape.rowMajor_val_two, Shape.rowMajor_val_three]
  show (128 * t.val + r.val) * 64 + p.val = ((win0_0.index t (0 : Fin 3) * 128 + 1 * r.val) * 64 + (win0_0.index t (1 : Fin 3) * 64 + 1 * p.val)) * 1 + (win0_0.index t (2 : Fin 3) * 1 + 1 * 0)
  rw [e0, e1, e2]; omega

theorem xj_at (c : Dev nD) (t : Fin cfg0.N) (r : Fin 128) (q : Fin 64) :
    (iblk m c 1 t : Vec Ideal S128x1x64 .f32) (ix3 r 0 q) = argX m c (ix2 (rowAt t r) q) := by
  obtain ⟨e0, e1, e2⟩ := idx_xj t
  unfold iblk
  rw [View.read_apply]
  show V m c main_v1 _ = _
  rw [v1_eq]
  refine shapeCast_apply _ _ _ (ix2 (rowAt t r) q) ?_
  rw [Shape.rowMajor_val_two, Shape.rowMajor_val_three]
  show (128 * t.val + r.val) * 64 + q.val = ((win0_1.index t (0 : Fin 3) * 128 + 1 * r.val) * 1 + (win0_1.index t (1 : Fin 3) * 1 + 1 * 0)) * 64 + (win0_1.index t (2 : Fin 3) * 64 + 1 * q.val)
  rw [e0, e1, e2]; omega

theorem x_at (c : Dev nD) (t : Fin cfg0.N) (r : Fin 128) (k : Fin 64) :
    (iblk m c 2 t : Vec Ideal S128x64 .f32) (ix2 r k) = argX m c (ix2 (rowAt t r) k) := by
  obtain ⟨e0, e1⟩ := idx_x t
  unfold iblk
  rw [View.read_apply]
  show V m c main_arg0 _ = _
  rw [V_main_arg0]
  refine congrArg (argX m c) (funext fun a => Fin.ext ?_)
  match a with
  | ⟨0, _⟩ => show win0_2.index t (0 : Fin 2) * 128 + 1 * r.val = 128 * t.val + r.val; rw [e0]; omega
  | ⟨1, _⟩ => show win0_2.index t (1 : Fin 2) * 64 + 1 * k.val = k.val; rw [e1]; omega

/-- A parameter table's block is the whole table: position `64 p + q` at `(0, p, q)`. -/
theorem tab_at (X : Vec Ideal S4096 .f32) (j : S1x64x64.Idx) (p q : Fin 64)
    (h0 : (j 0).val = 0) (h1 : (j 1).val = p.val) (h2 : (j 2).val = q.val) :
    shapeCast S1x64x64 X shapeCasts_S4096_S1x64x64 j = X (ix1 (flat p q)) := by
  refine shapeCast_apply _ _ _ (ix1 (flat p q)) ?_
  rw [Shape.rowMajor_val_one, Shape.rowMajor_val_three]
  show 64 * p.val + q.val = ((j 0).val * 64 + (j 1).val) * 64 + (j 2).val
  rw [h0, h1, h2]; omega

theorem a_at (c : Dev nD) (t : Fin cfg0.N) (p q : Fin 64) :
    (iblk m c 3 t : Vec Ideal S1x64x64 .f32) (ix3 0 p q) = argA m c (ix1 (flat p q)) := by
  obtain ⟨⟨e0, e1, e2⟩, -⟩ := idx_tabs t
  unfold iblk
  rw [View.read_apply]
  show V m c main_v2 _ = _
  rw [v2_eq]
  refine tab_at _ _ p q ?_ ?_ ?_
  · show win0_3.index t (0 : Fin 3) * 1 + 1 * 0 = 0; rw [e0]
  · show win0_3.index t (1 : Fin 3) * 64 + 1 * p.val = p.val; rw [e1]; omega
  · show win0_3.index t (2 : Fin 3) * 64 + 1 * q.val = q.val; rw [e2]; omega

theorem b_at (c : Dev nD) (t : Fin cfg0.N) (p q : Fin 64) :
    (iblk m c 4 t : Vec Ideal S1x64x64 .f32) (ix3 0 p q) = argB m c (ix1 (flat p q)) := by
  obtain ⟨-, ⟨e0, e1, e2⟩, -⟩ := idx_tabs t
  unfold iblk
  rw [View.read_apply]
  show V m c main_v3 _ = _
  rw [v3_eq]
  refine tab_at _ _ p q ?_ ?_ ?_
  · show win0_4.index t (0 : Fin 3) * 1 + 1 * 0 = 0; rw [e0]
  · show win0_4.index t (1 : Fin 3) * 64 + 1 * p.val = p.val; rw [e1]; omega
  · show win0_4.index t (2 : Fin 3) * 64 + 1 * q.val = q.val; rw [e2]; omega

theorem c_at (c : Dev nD) (t : Fin cfg0.N) (p q : Fin 64) :
    (iblk m c 5 t : Vec Ideal S1x64x64 .f32) (ix3 0 p q) = argC m c (ix1 (flat p q)) := by
  obtain ⟨-, -, ⟨e0, e1, e2⟩, -⟩ := idx_tabs t
  unfold iblk
  rw [View.read_apply]
  show V m c main_v4 _ = _
  rw [v4_eq]
  refine tab_at _ _ p q ?_ ?_ ?_
  · show win0_5.index t (0 : Fin 3) * 1 + 1 * 0 = 0; rw [e0]
  · show win0_5.index t (1 : Fin 3) * 64 + 1 * p.val = p.val; rw [e1]; omega
  · show win0_5.index t (2 : Fin 3) * 64 + 1 * q.val = q.val; rw [e2]; omega

theorem w_at (c : Dev nD) (t : Fin cfg0.N) (p q : Fin 64) :
    (iblk m c 6 t : Vec Ideal S1x64x64 .f32) (ix3 0 p q) = argW m c (ix1 (flat p q)) := by
  obtain ⟨-, -, -, ⟨e0, e1, e2⟩, -⟩ := idx_tabs t
  unfold iblk
  rw [View.read_apply]
  show V m c main_v5 _ = _
  rw [v5_eq]
  refine tab_at _ _ p q ?_ ?_ ?_
  · show win0_6.index t (0 : Fin 3) * 1 + 1 * 0 = 0; rw [e0]
  · show win0_6.index t (1 : Fin 3) * 64 + 1 * p.val = p.val; rw [e1]; omega
  · show win0_6.index t (2 : Fin 3) * 64 + 1 * q.val = q.val; rw [e2]; omega

theorem d_at (c : Dev nD) (t : Fin cfg0.N) (p q : Fin 64) :
    (iblk m c 7 t : Vec Ideal S1x64x64 .f32) (ix3 0 p q) = argD m c (ix1 (flat p q)) := by
  obtain ⟨-, -, -, -, e0, e1, e2⟩ := idx_tabs t
  unfold iblk
  rw [View.read_apply]
  show V m c main_v6 _ = _
  rw [v6_eq]
  refine tab_at _ _ p q ?_ ?_ ?_
  · show win0_7.index t (0 : Fin 3) * 1 + 1 * 0 = 0; rw [e0]
  · show win0_7.index t (1 : Fin 3) * 64 + 1 * p.val = p.val; rw [e1]; omega
  · show win0_7.index t (2 : Fin 3) * 64 + 1 * q.val = q.val; rw [e2]; omega

/-- A 64-entry table's block is the whole table: entry `k` at `(0, k)`. -/
theorem line_at (X : Vec Ideal S64 .f32) (j : S1x64.Idx) (k : Fin 64) (h0 : (j 0).val = 0) (h1 : (j 1).val = k.val) :
    shapeCast S1x64 X shapeCasts_S64_S1x64 j = X (ix1 k) := by
  refine shapeCast_apply _ _ _ (ix1 k) ?_
  rw [Shape.rowMajor_val_one, Shape.rowMajor_val_two]
  show k.val = (j 0).val * 64 + (j 1).val
  rw [h0, h1]; omega

theorem lw_at (c : Dev nD) (t : Fin cfg0.N) (k : Fin 64) :
    (iblk m c 8 t : Vec Ideal S1x64 .f32) (ix2 0 k) = argLw m c (ix1 k) := by
  obtain ⟨⟨e0, e1⟩, -⟩ := idx_lines t
  unfold iblk
  rw [View.read_apply]
  show V m c main_v7 _ = _
  rw [v7_eq]
  refine line_at _ _ k ?_ ?_
  · show win0_8.index t (0 : Fin 2) * 1 + 1 * 0 = 0; rw [e0]
  · show win0_8.index t (1 : Fin 2) * 64 + 1 * k.val = k.val; rw [e1]; omega

theorem lb_at (c : Dev nD) (t : Fin cfg0.N) (k : Fin 64) :
    (iblk m c 9 t : Vec Ideal S1x64 .f32) (ix2 0 k) = argLb m c (ix1 k) := by
  obtain ⟨-, e0, e1⟩ := idx_lines t
  unfold iblk
  rw [View.read_apply]
  show V m c main_v8 _ = _
  rw [v8_eq]
  refine line_at _ _ k ?_ ?_
  · show win0_9.index t (0 : Fin 2) * 1 + 1 * 0 = 0; rw [e0]
  · show win0_9.index t (1 : Fin 2) * 64 + 1 * k.val = k.val; rw [e1]; omega

/-! ## What each point writes back -/

/-- The result array the specification gives for the arguments. -/
abbrev spec (c : Dev nD) : Vec Ideal S32768x1 .f32 :=
  G (argX m c) (argA m c) (argB m c) (argC m c) (argW m c) (argD m c) (argLw m c) (argLb m c)

theorem cell_congr {xi xi' xj xj' a a' b b' c c' w w' d d' : EReal} (h1 : xi = xi') (h2 : xj = xj') (h3 : a = a')
    (h4 : b = b') (h5 : c = c') (h6 : w = w') (h7 : d = d') : cell xi xj a b c w d = cell xi' xj' a' b' c' w' d' := by
  subst h1 h2 h3 h4 h5 h6 h7; rfl

theorem lin_congr {l l' x x' b b' : EReal} (h1 : l = l') (h2 : x = x') (h3 : b = b') : l * x + b = l' * x' + b' := by
  subst h1 h2 h3; rfl

/-- The specification at an index whose row is `R`. -/
theorem spec_row (x : Vec Ideal S32768x64 .f32) (a b c w d : Vec Ideal S4096 .f32) (lw lb : Vec Ideal S64 .f32)
    (i : S32768x1.Idx) (R : Fin 32768) (h : (i 0).val = R.val) :
    G x a b c w d lw lb i
      = (∑ p : Fin 64, ∑ q : Fin 64, cell (x (ix2 R p)) (x (ix2 R q)) (a (ix1 (flat p q))) (b (ix1 (flat p q)))
            (c (ix1 (flat p q))) (w (ix1 (flat p q))) (d (ix1 (flat p q))))
        + ∑ k : Fin 64, (lw (ix1 k) * x (ix2 R k) + lb (ix1 k)) := by
  have e : i 0 = R := Fin.ext h
  unfold G
  rw [e]

/-- Point `t` writes back rows `128 t … 128 t + 127` of the specification's array. -/
theorem flushed_eq (c : Dev nD) (t : Fin cfg0.N) :
    (dats m 0 c).flushed 10 t = ((cfg0.win 10).blk t).view.read (Elt Ideal) (spec m c) := by
  obtain ⟨e0, e1⟩ := idx_out t
  rw [Value.flushed10]
  unfold out0_10
  simp only [View.ld_unit_zero (S := S128x64x1) hz3, View.ld_unit_zero (S := S128x1x64) hz3,
    View.ld_unit_zero (S := S1x64x64) hz3, View.ld_unit_zero (S := S128x64) hz2, View.ld_unit_zero (S := S1x64) hz2]
  funext y
  obtain ⟨r, u, rfl⟩ : ∃ (r : Fin 128) (u : Fin 1), y = ix2 r u := ⟨y 0, y 1, eq_ix2 y⟩
  refine (Value.canon10_eq (F := Ideal) (iblk m c 6 t) (iblk m c 3 t) (iblk m c 0 t) (iblk m c 1 t) (iblk m c 4 t)
    (iblk m c 5 t) (iblk m c 7 t) (iblk m c 8 t) (iblk m c 2 t) (iblk m c 9 t) (ix2 r u)).trans ?_
  refine (block_value (iblk m c 6 t) (iblk m c 3 t) (iblk m c 0 t) (iblk m c 1 t) (iblk m c 4 t)
    (iblk m c 5 t) (iblk m c 7 t) (iblk m c 8 t) (iblk m c 2 t) (iblk m c 9 t) r u).trans ?_
  refine Eq.trans ?_ (spec_row (argX m c) (argA m c) (argB m c) (argC m c) (argW m c) (argD m c) (argLw m c) (argLb m c)
    (((cfg0.win 10).blk t).view.emb (ix2 r u)) (rowAt t r) (by
      show win0_10.index t (0 : Fin 2) * 128 + 1 * r.val = 128 * t.val + r.val; rw [e0]; omega)).symm
  refine congrArg₂ (· + ·) (Finset.sum_congr rfl fun p _ => Finset.sum_congr rfl fun q _ => ?_)
    (Finset.sum_congr rfl fun k _ => ?_)
  · exact cell_congr (xi_at m c t r p) (xj_at m c t r q) (a_at m c t p q) (b_at m c t p q) (c_at m c t p q)
      (w_at m c t p q) (d_at m c t p q)
  · exact lin_congr (lw_at m c t k) (x_at m c t r k) (lb_at m c t k)

/-! ## The blocks tile the result -/

theorem mem_blk (t : Fin cfg0.N) (i : S32768x1.Idx) :
    i ∈ ((cfg0.win 10).blk t).view.set ↔ ∀ a : Fin 2, win0_10.index t a * S128x1.size a ≤ (i a).val ∧ (i a).val < win0_10.index t a * S128x1.size a + S128x1.size a := by
  show i ∈ ((View.whole main_v9).slice (win0_10.rect t)).set ↔ _
  rw [View.set_slice_whole, Rect.mem_set_unit]
  exact Iff.rfl

/-- Row `R` lies in the block of point `R / 128`. -/
theorem cover (i : S32768x1.Idx) : ∃ t : Fin cfg0.N, (cfg0.win 10).flush t = true ∧ i ∈ ((cfg0.win 10).blk t).view.set := by
  have hi0 : (i 0).val < 32768 := (i 0).isLt
  have hi1 : (i 1).val < 1 := (i 1).isLt
  have hN : grid0.N = 256 := N_0
  let t : Fin cfg0.N := ⟨(i 0).val / 128, by show (i 0).val / 128 < grid0.N; omega⟩
  have ht : t.val = (i 0).val / 128 := rfl
  obtain ⟨e0, e1⟩ := idx_out t
  refine ⟨t, flush0_10 t, ?_⟩
  rw [mem_blk]
  intro a
  match a with
  | ⟨0, _⟩ =>
    show win0_10.index t (0 : Fin 2) * 128 ≤ (i 0).val ∧ (i 0).val < win0_10.index t (0 : Fin 2) * 128 + 128
    rw [e0]; omega
  | ⟨1, _⟩ =>
    show win0_10.index t (1 : Fin 2) * 1 ≤ (i 1).val ∧ (i 1).val < win0_10.index t (1 : Fin 2) * 1 + 1
    rw [e1]; omega

/-- So the result array ends as the specification's. -/
theorem final (c : Dev nD) : (dats m 0 c).arrAt 10 cfg0.N = spec m c :=
  (dats m 0 c).arrAt_eq_of_cover 10 (spec m c) (fun t _ => flushed_eq m c t) cover

/-- The kernel's run: the result array at the specification's, the arguments unchanged. -/
theorem run : θ_run defs (onTc (τ := τ) (main (F := Ideal))) ⟨m, fun _ => 0, ρ⟩ fun r => ∀ c : Dev nD,
      r.2.mem ((c : Thread nD τ).loc main_v9) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefValue.lean ====
/-
  The reference's result, read one index at a time, is the specification's array.

  At the index `(r, 0)` the reference is `(0 + Σ_n t(r, n)) + (0 + Σ_k (lw[k]·x[r,k] + lb[k]))`, where the
  4096 cross terms come from the outer product `x[r,p]·x[r,q]` flattened row-major, so position `n` holds the pair
  `(n / 64, n % 64)`, and each parameter table is read at `n` itself. That is the specification's flat form.
-/
import proofs.«109781_j19731079758360_1_alg».proof.Proof.Gen.ReferenceIdeal.Read
import proofs.«109781_j19731079758360_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.ShloMosaic.StableHlo
open Cert.GaussCross
open scoped BigOperators

/-! ## Where each operand is read -/

section idx
variable (i : S32768x1.Idx) (n : Fin 4096) (k : Fin 64)

/-- The left factor of the outer product at flattened position `n` of row `r` is `x[r, n / 64]`. -/
theorem at_left : idx_main_v0 (idx_main_v2 (idx_main_v5 (idx_main_v27 (idx_main_v28 i) n))) = ix2 (i 0) (rowOf n) := by
  have hi := (i 0).isLt
  have hn := n.isLt
  funext a; apply Fin.ext
  match a with
  | ⟨0, _⟩ => show ((i 0).val * 4096 + n.val) / 4096 = (i 0).val; omega
  | ⟨1, _⟩ => show ((i 0).val * 4096 + n.val) / 64 % 64 = n.val / 64; omega

/-- The right factor is `x[r, n % 64]`. -/
theorem at_right : idx_main_v1 (idx_main_v3 (idx_main_v5 (idx_main_v27 (idx_main_v28 i) n))) = ix2 (i 0) (colOf n) := by
  have hi := (i 0).isLt
  have hn := n.isLt
  funext a; apply Fin.ext
  match a with
  | ⟨0, _⟩ => show ((i 0).val * 4096 + n.val) / 4096 = (i 0).val; omega
  | ⟨1, _⟩ => show ((i 0).val * 4096 + n.val) % 64 = n.val % 64; omega

/-- Each parameter table, spread over the rows, is read at the flattened position itself. -/
theorem at_b : idx_main_v6 (idx_main_v7 (idx_main_v27 (idx_main_v28 i) n)) = ix1 n := by
  funext a; match a with | ⟨0, _⟩ => rfl
theorem at_c : idx_main_v14 (idx_main_v15 (idx_main_v27 (idx_main_v28 i) n)) = ix1 n := by
  funext a; match a with | ⟨0, _⟩ => rfl
theorem at_a : idx_main_v18 (idx_main_v19 (idx_main_v27 (idx_main_v28 i) n)) = ix1 n := by
  funext a; match a with | ⟨0, _⟩ => rfl
theorem at_w : idx_main_v21 (idx_main_v22 (idx_main_v27 (idx_main_v28 i) n)) = ix1 n := by
  funext a; match a with | ⟨0, _⟩ => rfl
theorem at_d : idx_main_v24 (idx_main_v25 (idx_main_v27 (idx_main_v28 i) n)) = ix1 n := by
  funext a; match a with | ⟨0, _⟩ => rfl

/-- The linear part reads `x[r, k]` and the two 64-entry tables at `k`. -/
theorem at_x : idx_main_v35 (idx_main_v36 i) k = ix2 (i 0) k := by
  funext a; match a with | ⟨0, _⟩ => rfl | ⟨1, _⟩ => rfl
theorem at_lw : idx_main_v29 (idx_main_v30 (idx_main_v35 (idx_main_v36 i) k)) = ix1 k := by
  funext a; match a with | ⟨0, _⟩ => rfl
theorem at_lb : idx_main_v32 (idx_main_v33 (idx_main_v35 (idx_main_v36 i) k)) = ix1 k := by
  funext a; match a with | ⟨0, _⟩ => rfl

end idx

/-! ## The two kinds of term -/

/-- The cross term at flattened position `n` of row `r`. -/
theorem cross_term (x : (⟨S32768x64, .f32⟩ : BufTy).Contents (Elt Ideal))
    (a b c w d : (⟨S4096, .f32⟩ : BufTy).Contents (Elt Ideal)) (i : S32768x1.Idx) (n : Fin 4096) :
    val_main_v26 (F := Ideal) x a b c w d (idx_main_v27 (idx_main_v28 i) n)
      = cell (x (ix2 (i 0) (rowOf n))) (x (ix2 (i 0) (colOf n))) (a (ix1 n)) (b (ix1 n)) (c (ix1 n)) (w (ix1 n)) (d (ix1 n)) := by
  simp only [val_main_v26_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v13_apply, val_main_v12_apply,
    val_main_v11_apply, val_main_cst_apply, val_main_v10_apply, val_main_v9_apply, val_main_v8_apply,
    val_main_v7_apply, val_main_v6_apply, val_main_v5_apply, val_main_v4_apply, val_main_v3_apply,
    val_main_v2_apply, val_main_v1_apply, val_main_v0_apply,
    at_left, at_right, at_a, at_b, at_c, at_w, at_d]
  rfl

/-- The linear term at column `k` of row `r`. -/
theorem lin_term (x : (⟨S32768x64, .f32⟩ : BufTy).Contents (Elt Ideal))
    (lw lb : (⟨S64, .f32⟩ : BufTy).Contents (Elt Ideal)) (i : S32768x1.Idx) (k : Fin 64) :
    val_main_v34 (F := Ideal) x lw lb (idx_main_v35 (idx_main_v36 i) k) = lw (ix1 k) * x (ix2 (i 0) k) + lb (ix1 k) := by
  rw [val_main_v34_apply, val_main_v33_apply, val_main_v32_apply, val_main_v31_apply, val_main_v30_apply,
    val_main_v29_apply, at_lw, at_lb, at_x]
  rfl

/-! ## The reference is the specification -/

theorem result_eq (x : (⟨S32768x64, .f32⟩ : BufTy).Contents (Elt Ideal))
    (a b c w d : (⟨S4096, .f32⟩ : BufTy).Contents (Elt Ideal)) (lw lb : (⟨S64, .f32⟩ : BufTy).Contents (Elt Ideal)) :
    val_main_v37 (F := Ideal) x a b c w d lw lb = G x a b c w d lw lb := by
  funext i
  rw [G_flat, val_main_v37_apply, val_main_v28_apply, val_main_v36_apply, val_main_v27_apply, val_main_v35_apply]
  simp only [cross_term, lin_term, val_main_cst_0_apply, val_main_cst_1_apply]
  show (Ideal.ofBits .f32 0x00000000#32 + _) + (Ideal.ofBits .f32 0x00000000#32 + _) = _
  rw [Ideal.ofBits_zero_f32, zero_add, zero_add]

end Cert.ReferenceIdeal.RefValue

end
-- ==== Proof.lean ====
/-
  The certificate of the outer-product Gaussian kernel against its jnp reference, over the extended reals.

  Both programs compute, for every row `r` of `x : [32768, 64]`,
    Σ_{p,q} ( w[64p+q] · a[64p+q] · exp( -((x[r,p]·x[r,q] - b[64p+q])²) / (2·c[64p+q]²) ) + d[64p+q] )  +  Σ_k ( lw[k]·x[r,k] + lb[k] )
  (Proof/Spec.lean). The kernel takes 128 rows per grid point and sums the 4096 cross terms row by row of the outer
  product (Proof/Block.lean, Proof/Whole.lean); the reference flattens the outer product and sums it in one sweep
  (Proof/RefValue.lean). The two orders of summation agree because addition of extended reals is commutative and
  associative; the kernel's `0 - s` is the reference's `-s`; every other operation is the same exact function on
  both sides. Nothing here needs the inputs finite. The idealization rewrote no operation, so its claim is trivial;
  the three frames are the generated ones (the reference's is its generated run with the value dropped).
-/
import proofs.«109781_j19731079758360_1_alg».proof.Defs
import proofs.«109781_j19731079758360_1_alg».proof.Proof.Gen.Kernel
import proofs.«109781_j19731079758360_1_alg».proof.Proof.Gen.Kernel.Skeleton
import proofs.«109781_j19731079758360_1_alg».proof.Proof.Gen.Kernel.Launch
import proofs.«109781_j19731079758360_1_alg».proof.Proof.Gen.Kernel.Points
import proofs.«109781_j19731079758360_1_alg».proof.Proof.Gen.Kernel.Frame
import proofs.«109781_j19731079758360_1_alg».proof.Proof.Gen.KernelIdeal
import proofs.«109781_j19731079758360_1_alg».proof.Proof.Gen.KernelIdeal.Skeleton
import proofs.«109781_j19731079758360_1_alg».proof.Proof.Gen.KernelIdeal.Launch
import proofs.«109781_j19731079758360_1_alg».proof.Proof.Gen.KernelIdeal.Points
import proofs.«109781_j19731079758360_1_alg».proof.Proof.Gen.KernelIdeal.Frame
import proofs.«109781_j19731079758360_1_alg».proof.Proof.Gen.ReferenceIdeal
import proofs.«109781_j19731079758360_1_alg».proof.Proof.Gen.Pre_finite_inputs
import proofs.«109781_j19731079758360_1_alg».proof.Proof.Gen.KernelIdeal.Value
import proofs.«109781_j19731079758360_1_alg».proof.Proof.Gen.ReferenceIdeal.Run
import proofs.«109781_j19731079758360_1_alg».proof.Proof.Gen.ReferenceIdeal.Read
import proofs.«109781_j19731079758360_1_alg».proof.Proof.Whole
import proofs.«109781_j19731079758360_1_alg».proof.Proof.RefValue
import Idealize.ShloMosaic.Adequacy
import Idealize.ShloMosaic.Init

noncomputable section

namespace Cert.Proof

open Idealize.ShloMosaic Idealize.ShloMosaic.TcCoe Idealize.SL.Sem

/-- From memories agreeing on the arguments, the kernel's result array (the specification's array of its arguments)
    and the reference's (the same array of its own arguments) are equal. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v37_eq (F := Ideal) _ _ _ _ _ _ _ _).trans ?_
  rw [Cert.ReferenceIdeal.RefValue.result_eq]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
